-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x24 : Shape := ⟨2, ![64, 24]⟩
abbrev S24 : Shape := ⟨1, ![24]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg6 : FVec F S64 .f32) (main_arg7 : FVec F S64x24 .f32) (main_arg8 : FVec F S24 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x24 .f32 := Host.absf main_arg7
  let main_cst_8 : FVec F S_ .f32 := constant S_ .f32 0x7F800000#32
  let main_v25 : FVec F S64x24 .f32 := broadcastInDim S64x24 ![] bcast_S_S64x24 main_cst_8
  let main_v26 : IVec S64x24 1 := cmpf .olt main_v24 main_v25
  let main_c_9 : IVec S_ 1 := constantI S_ 1 1#1
  let main_v27 : IVec S_ 1 := (fun x v => Host.reduce IntOp.andi x v reducesTo_S64x24_S_d0_1 h_S_) main_v26 main_c_9
  let main_v28 : IVec S_ 1 := andi main_v23 main_v27
  let main_v29 : FVec F S24 .f32 := Host.absf main_arg8
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  main_v33

def fn {F : FTy → Type} [FloatOps F] (main_arg0 : FVec F S100000x3 .f32) (main_arg1 : IVec S2x1600000 32) (main_arg2 : IVec S100000 32) (main_arg3 : FVec F S3x64 .f32) (main_arg4 : FVec F S64 .f32) (main_arg5 : FVec F S64x64 .f32) (main_arg6 : FVec F S64 .f32) (main_arg7 : FVec F S64x24 .f32) (main_arg8 : FVec F S24 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x24 : Shape := ⟨2, ![64, 24]⟩
abbrev S24 : Shape := ⟨1, ![24]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x3 : Shape := ⟨2, ![10000, 3]⟩
abbrev S10000x64 : Shape := ⟨2, ![10000, 64]⟩
abbrev S1700000x64 : Shape := ⟨2, ![1700000, 64]⟩
abbrev S1x64 : Shape := ⟨2, ![1, 64]⟩
abbrev S100000x24 : Shape := ⟨2, ![100000, 24]⟩
abbrev S10000x24 : Shape := ⟨2, ![10000, 24]⟩
abbrev S1700000x24 : Shape := ⟨2, ![1700000, 24]⟩
abbrev S1x24 : Shape := ⟨2, ![1, 24]⟩
abbrev S100000x1 : Shape := ⟨2, ![100000, 1]⟩
abbrev S64x1 : Shape := ⟨2, ![64, 1]⟩

abbrev nBuf : Space → Nat
  | .hbm => 121
  | .vmem => 30
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x24, .f32⟩
  | .hbm, ⟨8, _⟩ => ⟨S24, .f32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S100000x64, .f32⟩
  | .hbm, ⟨86, _⟩ => ⟨S100000x24, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x24, .f32⟩
  | .hbm, ⟨96, _⟩ => ⟨S1700000x1, .f32⟩
  | .hbm, ⟨97, _⟩ => ⟨S1700000x24, .f32⟩
  | .hbm, ⟨98, _⟩ => ⟨S1700000x24, .f32⟩
  | .hbm, ⟨99, _⟩ => ⟨S_, .f32⟩
  | .hbm, ⟨100, _⟩ => ⟨S100000x24, .f32⟩
  | .hbm, ⟨101, _⟩ => ⟨S1700000x1, .i32⟩
  | .hbm, ⟨102, _⟩ => ⟨S100000x24, .f32⟩
  | .hbm, ⟨103, _⟩ => ⟨S100000x24, .f32⟩
  | .hbm, ⟨104, _⟩ => ⟨S_, .f32⟩
  | .hbm, ⟨105, _⟩ => ⟨S64x24, .f32⟩
  | .hbm, ⟨106, _⟩ => ⟨S100000x1, .i32⟩
  | .hbm, ⟨107, _⟩ => ⟨S64x24, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S64, .f32⟩
  | .hbm, ⟨112, _⟩ => ⟨S100000x1, .i32⟩
  | .hbm, ⟨113, _⟩ => ⟨S64, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S64x1, .f32⟩
  | .hbm, ⟨118, _⟩ => ⟨S64x24, .f32⟩
  | .hbm, ⟨119, _⟩ => ⟨S64x24, .f32⟩
  | .hbm, ⟨120, _⟩ => ⟨S64x24, .f32⟩
  | .local _ .vmem, ⟨0, _⟩ => ⟨S10000x3, .f32⟩
  | .local _ .vmem, ⟨1, _⟩ => ⟨S10000x3, .f32⟩
  | .local _ .vmem, ⟨2, _⟩ => ⟨S3x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x24, .f32⟩
  | .local _ .vmem, ⟨23, _⟩ => ⟨S10000x24, .f32⟩
  | .local _ .vmem, ⟨24, _⟩ => ⟨S10000x24, .f32⟩
  | .local _ .vmem, ⟨25, _⟩ => ⟨S10000x24, .f32⟩
  | .local _ .vmem, ⟨26, _⟩ => ⟨S10000x24, .f32⟩
  | .local _ .vmem, ⟨27, _⟩ => ⟨S24, .f32⟩
  | .local _ .vmem, ⟨28, _⟩ => ⟨S10000x24, .f32⟩
  | .local _ .vmem, ⟨29, _⟩ => ⟨S10000x24, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x24 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x24 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x24 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S24 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x24 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x24_S64x24_0_0 : ∀ a, (![0, 0] : Fin 2 → Nat) a + S64x24.size a ≤ S64x24.size a
  h_S64x24 : 0 < S64x24.numel
  inb_S10000x24_S10000x24_0_0 : ∀ a, (![0, 0] : Fin 2 → Nat) a + S10000x24.size a ≤ S10000x24.size a
  h_S10000x24 : 0 < S10000x24.numel
  bcast_S1700000x1_S1700000x24_0_1 : S1700000x1.BroadcastsInDim S1700000x24 (![0, 1] : Fin 2 → Fin S1700000x24.rank)
  bcast_S_S100000x24 : S_.BroadcastsInDim S100000x24 (![] : Fin 0 → Fin S100000x24.rank)
  shapeCasts_S10000x24_S10000x24 : S10000x24.ShapeCasts S10000x24
  inb_S24_S24_0 : ∀ a, (![0] : Fin 1 → Nat) a + S24.size a ≤ S24.size a
  h_S24 : 0 < S24.numel
  shapeCasts_S24_S1x24 : S24.ShapeCasts S1x24
  broadcasts_S1x24_S10000x24 : S1x24.Broadcasts S10000x24
  bcast_S_S64x24 : S_.BroadcastsInDim S64x24 (![] : Fin 0 → Fin S64x24.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x24_0_1 : S64x1.BroadcastsInDim S64x24 (![0, 1] : Fin 2 → Fin S64x24.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x3_S3x64_S10000x64_1_0_0_1_n_n_wf : DotDims.WF S10000x3 S3x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x24_S10000x24_1_0_0_1_n_n_wf : DotDims.WF S10000x64 S64x24 S10000x24 [1] [0] [0] [1] [] []
  gather_S100000x24_S1700000x1_S1700000x24_1_0_n_n_0_1_124_wf : GatherDims.WF S100000x24 S1700000x1 S1700000x24 [1] [0] [] [0] [] 1 ![1, 24]
  scatter_S100000x24_S1700000x1_S1700000x24_1_0_0_1_wf : ScatterDims.WF S100000x24 S1700000x1 S1700000x24 [1] [0] [0] 1
  scatter_S64x24_S100000x1_S100000x24_1_0_0_1_wf : ScatterDims.WF S64x24 S100000x1 S100000x24 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x24.size a ≤ S64x24.size a
  hwx4_1 : ∀ i : grid4.Coords, EltTy.bits .f32 = 32 ∨ (Rect.block (s := S64x24) S64x24.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x24.size a ≤ S100000x24.size a
  hwx4_2 : ∀ i : grid4.Coords, EltTy.bits .f32 = 32 ∨ (Rect.block (s := S100000x24) S10000x24.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x24.size a ≤ S100000x24.size a
  hwx5_0 : ∀ i : grid5.Coords, EltTy.bits .f32 = 32 ∨ (Rect.block (s := S100000x24) S10000x24.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S24.size a ≤ S24.size a
  hwx5_1 : ∀ i : grid5.Coords, EltTy.bits .f32 = 32 ∨ (Rect.block (s := S24) S24.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x24.size a ≤ S100000x24.size a
  hwx5_2 : ∀ i : grid5.Coords, EltTy.bits .f32 = 32 ∨ (Rect.block (s := S100000x24) S10000x24.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x24_S10000x24_1_0_0_1_n_n : DotDims S10000x64 S64x24 S10000x24 where
  lhsContracting := [1]
  rhsContracting := [0]
  lhsNonContracting := [0]
  rhsNonContracting := [1]
  lhsBatch := []
  rhsBatch := []
  wf := dot_S10000x64_S64x24_S10000x24_1_0_0_1_n_n_wf
def gather_S100000x24_S1700000x1_S1700000x24_1_0_n_n_0_1_124 : GatherDims S100000x24 S1700000x1 S1700000x24 where
  offsetDims := [1]
  collapsedSliceDims := [0]
  operandBatchingDims := []
  startIndicesBatchingDims := []
  startIndexMap := [0]
  indexVectorDim := 1
  sliceSizes := ![1, 24]
  wf := gather_S100000x24_S1700000x1_S1700000x24_1_0_n_n_0_1_124_wf
def scatter_S100000x24_S1700000x1_S1700000x24_1_0_0_1 : ScatterDims S100000x24 S1700000x1 S1700000x24 where
  updateWindowDims := [1]
  insertedWindowDims := [0]
  scatterDimsToOperandDims := [0]
  indexVectorDim := 1
  wf := scatter_S100000x24_S1700000x1_S1700000x24_1_0_0_1_wf
def scatter_S64x24_S100000x1_S100000x24_1_0_0_1 : ScatterDims S64x24 S100000x1 S100000x24 where
  updateWindowDims := [1]
  insertedWindowDims := [0]
  scatterDimsToOperandDims := [0]
  indexVectorDim := 1
  wf := scatter_S64x24_S100000x1_S100000x24_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x24.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x24.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x24.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S24.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x24.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x24 : Shape := ⟨2, ![64, 24]⟩
abbrev S24 : Shape := ⟨1, ![24]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x24 : Shape := ⟨2, ![100000, 24]⟩
abbrev S1700000x24 : Shape := ⟨2, ![1700000, 24]⟩
abbrev S1x24 : Shape := ⟨2, ![1, 24]⟩
abbrev S100000x1 : Shape := ⟨2, ![100000, 1]⟩
abbrev S64x1 : Shape := ⟨2, ![64, 1]⟩

abbrev nBuf : Space → Nat
  | .hbm => 133
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x64, .f32⟩
  | 4 => ⟨S64, .f32⟩
  | 5 => ⟨S64x64, .f32⟩
  | 6 => ⟨S64, .f32⟩
  | 7 => ⟨S64x24, .f32⟩
  | 8 => ⟨S24, .f32⟩
  | 9 => ⟨S1x1600000, .i32⟩
  | 10 => ⟨S1600000, .i32⟩
  | 11 => ⟨S100000, .i32⟩
  | 12 => ⟨S1700000, .i32⟩
  | 13 => ⟨S1x1600000, .i32⟩
  | 14 => ⟨S1600000, .i32⟩
  | 15 => ⟨S100000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x24, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x24, .f32⟩
  | 106 => ⟨S1700000x1, .f32⟩
  | 107 => ⟨S1700000x24, .f32⟩
  | 108 => ⟨S1700000x24, .f32⟩
  | 109 => ⟨S_, .f32⟩
  | 110 => ⟨S100000x24, .f32⟩
  | 111 => ⟨S1700000x1, .i32⟩
  | 112 => ⟨S100000x24, .f32⟩
  | 113 => ⟨S1x24, .f32⟩
  | 114 => ⟨S100000x24, .f32⟩
  | 115 => ⟨S100000x24, .f32⟩
  | 116 => ⟨S_, .f32⟩
  | 117 => ⟨S64x24, .f32⟩
  | 118 => ⟨S100000x1, .i32⟩
  | 119 => ⟨S64x24, .f32⟩
  | 120 => ⟨S_, .f32⟩
  | 121 => ⟨S100000, .f32⟩
  | 122 => ⟨S_, .f32⟩
  | 123 => ⟨S64, .f32⟩
  | 124 => ⟨S100000x1, .i32⟩
  | 125 => ⟨S64, .f32⟩
  | 126 => ⟨S_, .f32⟩
  | 127 => ⟨S64, .f32⟩
  | _ => ⟨S100000x3, .f32⟩

abbrev hbmTy0_1 (i : Nat) : BufTy := match i % 128 with
  | 0 => ⟨S64, .f32⟩
  | 1 => ⟨S64x1, .f32⟩
  | 2 => ⟨S64x24, .f32⟩
  | 3 => ⟨S64x24, .f32⟩
  | 4 => ⟨S64x24, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x24_0_1 : S1700000x1.BroadcastsInDim S1700000x24 (![0, 1] : Fin 2 → Fin S1700000x24.rank)
  bcast_S_S100000x24 : S_.BroadcastsInDim S100000x24 (![] : Fin 0 → Fin S100000x24.rank)
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  bcast_S_S64x24 : S_.BroadcastsInDim S64x24 (![] : Fin 0 → Fin S64x24.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x24_0_1 : S64x1.BroadcastsInDim S64x24 (![0, 1] : Fin 2 → Fin S64x24.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x64_S100000x64_1_0_0_1_n_n_wf : DotDims.WF S100000x3 S3x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x24_S100000x24_1_0_0_1_n_n_wf : DotDims.WF S100000x64 S64x24 S100000x24 [1] [0] [0] [1] [] []
  gather_S100000x24_S1700000x1_S1700000x24_1_0_n_n_0_1_124_wf : GatherDims.WF S100000x24 S1700000x1 S1700000x24 [1] [0] [] [0] [] 1 ![1, 24]
  scatter_S100000x24_S1700000x1_S1700000x24_1_0_0_1_wf : ScatterDims.WF S100000x24 S1700000x1 S1700000x24 [1] [0] [0] 1
  scatter_S64x24_S100000x1_S100000x24_1_0_0_1_wf : ScatterDims.WF S64x24 S100000x1 S100000x24 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x24_S100000x24_1_0_0_1_n_n : DotDims S100000x64 S64x24 S100000x24 where
  lhsContracting := [1]
  rhsContracting := [0]
  lhsNonContracting := [0]
  rhsNonContracting := [1]
  lhsBatch := []
  rhsBatch := []
  wf := dot_S100000x64_S64x24_S100000x24_1_0_0_1_n_n_wf
def gather_S100000x24_S1700000x1_S1700000x24_1_0_n_n_0_1_124 : GatherDims S100000x24 S1700000x1 S1700000x24 where
  offsetDims := [1]
  collapsedSliceDims := [0]
  operandBatchingDims := []
  startIndicesBatchingDims := []
  startIndexMap := [0]
  indexVectorDim := 1
  sliceSizes := ![1, 24]
  wf := gather_S100000x24_S1700000x1_S1700000x24_1_0_n_n_0_1_124_wf
def scatter_S100000x24_S1700000x1_S1700000x24_1_0_0_1 : ScatterDims S100000x24 S1700000x1 S1700000x24 where
  updateWindowDims := [1]
  insertedWindowDims := [0]
  scatterDimsToOperandDims := [0]
  indexVectorDim := 1
  wf := scatter_S100000x24_S1700000x1_S1700000x24_1_0_0_1_wf
def scatter_S64x24_S100000x1_S100000x24_1_0_0_1 : ScatterDims S64x24 S100000x1 S100000x24 where
  updateWindowDims := [1]
  insertedWindowDims := [0]
  scatterDimsToOperandDims := [0]
  indexVectorDim := 1
  wf := scatter_S64x24_S100000x1_S100000x24_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Keep.lean ====
import proofs.«106519_j66838281061050_1_alg».proof.Proof.Gen.KernelIdeal.Frame

/-!
  Buffers that are carried, untouched, through part of the program. The run is cut at thirteen boundaries: a
  stretch of host operations changes only the buffers its operations write, and a kernel region changes only its
  own arrays. So a buffer that a stretch does not write, and that is not an array of a region, holds after it what
  it held before. Chaining these steps reads the edge endpoints, the edge weights and the argument arrays, wherever
  a later stretch or region finds them, back to the boundary where they were made (or to the launch memory).
-/

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch writes the (literal) buffer of the goal. -/
macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Steps

variable (c : Dev nD) {b : Ref sig .tc}

/-- Through the three stretches before the first region, back to the launch memory. -/
theorem W3_to_launch
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- Through the two stretches after the edge endpoints are made (they are made in the first stretch). -/
theorem W3_to_W1
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = W1 m ρ c (Proc.devRef .tc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1

/-- Across the first region. -/
theorem W4_to_W3 (r0 : ∀ w, Pipeline.arrRef spec0 w ≠ b) :
    W4 m ρ c (Proc.devRef .tc b) = W3 m ρ c (Proc.devRef .tc b) := W4_of_ne m ρ c b r0

/-- Across the first region and the stretch after it. -/
theorem W5_to_W3 (h : ∀ op ∈ (hostOps1 : List (HloOp τ sig (Elt F))), Proc.devRef .tc b ∉ op.writes)
    (r0 : ∀ w, Pipeline.arrRef spec0 w ≠ b) :
    W5 m ρ c (Proc.devRef .tc b) = W3 m ρ c (Proc.devRef .tc b) :=
  (StableHlo.after_of_forall_not_mem _ _ h).trans (W4_of_ne m ρ c b r0)

/-- Across the second region. -/
theorem W6_to_W5 (r1 : ∀ w, Pipeline.arrRef spec1 w ≠ b) :
    W6 m ρ c (Proc.devRef .tc b) = W5 m ρ c (Proc.devRef .tc b) := W6_of_ne m ρ c b r1

/-- Across the third region. -/
theorem W7_to_W6 (r2 : ∀ w, Pipeline.arrRef spec2 w ≠ b) :
    W7 m ρ c (Proc.devRef .tc b) = W6 m ρ c (Proc.devRef .tc b) := W7_of_ne m ρ c b r2

/-- Across the third region and the stretch after it. -/
theorem W8_to_W6 (h : ∀ op ∈ (hostOps3 : List (HloOp τ sig (Elt F))), Proc.devRef .tc b ∉ op.writes)
    (r2 : ∀ w, Pipeline.arrRef spec2 w ≠ b) :
    W8 m ρ c (Proc.devRef .tc b) = W6 m ρ c (Proc.devRef .tc b) :=
  (StableHlo.after_of_forall_not_mem _ _ h).trans (W7_of_ne m ρ c b r2)

/-- Across the fourth region. -/
theorem W9_to_W8 (r3 : ∀ w, Pipeline.arrRef spec3 w ≠ b) :
    W9 m ρ c (Proc.devRef .tc b) = W8 m ρ c (Proc.devRef .tc b) := W9_of_ne m ρ c b r3

/-- Across the fifth region. -/
theorem W10_to_W9 (r4 : ∀ w, Pipeline.arrRef spec4 w ≠ b) :
    W10 m ρ c (Proc.devRef .tc b) = W9 m ρ c (Proc.devRef .tc b) := W10_of_ne m ρ c b r4

/-- Across the fifth region and the stretch after it. -/
theorem W11_to_W9 (h : ∀ op ∈ (hostOps5 : List (HloOp τ sig (Elt F))), Proc.devRef .tc b ∉ op.writes)
    (r4 : ∀ w, Pipeline.arrRef spec4 w ≠ b) :
    W11 m ρ c (Proc.devRef .tc b) = W9 m ρ c (Proc.devRef .tc b) :=
  (StableHlo.after_of_forall_not_mem _ _ h).trans (W10_of_ne m ρ c b r4)

/-- Across the sixth region. -/
theorem W12_to_W11 (r5 : ∀ w, Pipeline.arrRef spec5 w ≠ b) :
    W12 m ρ c (Proc.devRef .tc b) = W11 m ρ c (Proc.devRef .tc b) := W12_of_ne m ρ c b r5

end Steps

/-! ## The argument arrays where the regions and the last stretch find them -/

theorem W3_arg0 (c : Dev nD) : W3 m ρ c (Proc.devRef .tc main_arg0) = m ((c : Thread nD τ).loc main_arg0) :=
  W3_to_launch m ρ c (by not_written hostOps0) (by not_written hostOps0_1) (by not_written hostOps0_2)

theorem W3_arg3 (c : Dev nD) : W3 m ρ c (Proc.devRef .tc main_arg3) = m ((c : Thread nD τ).loc main_arg3) :=
  W3_to_launch m ρ c (by not_written hostOps0) (by not_written hostOps0_1) (by not_written hostOps0_2)

theorem W5_arg4 (c : Dev nD) : W5 m ρ c (Proc.devRef .tc main_arg4) = m ((c : Thread nD τ).loc main_arg4) :=
  (W5_to_W3 m ρ c (by not_written hostOps1) (by decide)).trans
    (W3_to_launch m ρ c (by not_written hostOps0) (by not_written hostOps0_1) (by not_written hostOps0_2))

theorem W6_arg5 (c : Dev nD) : W6 m ρ c (Proc.devRef .tc main_arg5) = m ((c : Thread nD τ).loc main_arg5) :=
  (W6_to_W5 m ρ c (by decide)).trans ((W5_to_W3 m ρ c (by not_written hostOps1) (by decide)).trans
    (W3_to_launch m ρ c (by not_written hostOps0) (by not_written hostOps0_1) (by not_written hostOps0_2)))

theorem W8_arg6 (c : Dev nD) : W8 m ρ c (Proc.devRef .tc main_arg6) = m ((c : Thread nD τ).loc main_arg6) :=
  (W8_to_W6 m ρ c (by not_written hostOps3) (by decide)).trans ((W6_to_W5 m ρ c (by decide)).trans
    ((W5_to_W3 m ρ c (by not_written hostOps1) (by decide)).trans
    (W3_to_launch m ρ c (by not_written hostOps0) (by not_written hostOps0_1) (by not_written hostOps0_2))))

theorem W9_arg7 (c : Dev nD) : W9 m ρ c (Proc.devRef .tc main_arg7) = m ((c : Thread nD τ).loc main_arg7) :=
  (W9_to_W8 m ρ c (by decide)).trans ((W8_to_W6 m ρ c (by not_written hostOps3) (by decide)).trans
    ((W6_to_W5 m ρ c (by decide)).trans ((W5_to_W3 m ρ c (by not_written hostOps1) (by decide)).trans
    (W3_to_launch m ρ c (by not_written hostOps0) (by not_written hostOps0_1) (by not_written hostOps0_2)))))

theorem W11_arg8 (c : Dev nD) : W11 m ρ c (Proc.devRef .tc main_arg8) = m ((c : Thread nD τ).loc main_arg8) :=
  (W11_to_W9 m ρ c (by not_written hostOps5) (by decide)).trans ((W9_to_W8 m ρ c (by decide)).trans
    ((W8_to_W6 m ρ c (by not_written hostOps3) (by decide)).trans ((W6_to_W5 m ρ c (by decide)).trans
    ((W5_to_W3 m ρ c (by not_written hostOps1) (by decide)).trans
    (W3_to_launch m ρ c (by not_written hostOps0) (by not_written hostOps0_1) (by not_written hostOps0_2))))))

theorem W12_arg2 (c : Dev nD) : W12 m ρ c (Proc.devRef .tc main_arg2) = m ((c : Thread nD τ).loc main_arg2) :=
  (W12_to_W11 m ρ c (by decide)).trans ((W11_to_W9 m ρ c (by not_written hostOps5) (by decide)).trans
    ((W9_to_W8 m ρ c (by decide)).trans ((W8_to_W6 m ρ c (by not_written hostOps3) (by decide)).trans
    ((W6_to_W5 m ρ c (by decide)).trans ((W5_to_W3 m ρ c (by not_written hostOps1) (by decide)).trans
    (W3_to_launch m ρ c (by not_written hostOps0) (by not_written hostOps0_1) (by not_written hostOps0_2)))))))

/-! ## The edge endpoints and weights where the three aggregation stretches find them -/

section Edges

variable (c : Dev nD) {b : Ref sig .tc}

/-- At the first aggregation stretch's entry. -/
theorem W4_edge (r0 : ∀ w, Pipeline.arrRef spec0 w ≠ b) :
    W4 m ρ c (Proc.devRef .tc b) = W3 m ρ c (Proc.devRef .tc b) := W4_to_W3 m ρ c r0

/-- At the second aggregation stretch's entry. -/
theorem W7_edge (h1 : ∀ op ∈ (hostOps1 : List (HloOp τ sig (Elt F))), Proc.devRef .tc b ∉ op.writes)
    (r0 : ∀ w, Pipeline.arrRef spec0 w ≠ b) (r1 : ∀ w, Pipeline.arrRef spec1 w ≠ b) (r2 : ∀ w, Pipeline.arrRef spec2 w ≠ b) :
    W7 m ρ c (Proc.devRef .tc b) = W3 m ρ c (Proc.devRef .tc b) :=
  (W7_to_W6 m ρ c r2).trans ((W6_to_W5 m ρ c r1).trans (W5_to_W3 m ρ c h1 r0))

/-- At the third aggregation stretch's entry. -/
theorem W10_edge (h1 : ∀ op ∈ (hostOps1 : List (HloOp τ sig (Elt F))), Proc.devRef .tc b ∉ op.writes)
    (h3 : ∀ op ∈ (hostOps3 : List (HloOp τ sig (Elt F))), Proc.devRef .tc b ∉ op.writes)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b) (r4 : ∀ w, Pipeline.arrRef spec4 w ≠ b) :
    W10 m ρ c (Proc.devRef .tc b) = W3 m ρ c (Proc.devRef .tc b) :=
  (W10_to_W9 m ρ c r4).trans ((W9_to_W8 m ρ c r3).trans ((W8_to_W6 m ρ c h3 r2).trans
    ((W6_to_W5 m ρ c r1).trans (W5_to_W3 m ρ c h1 r0))))

end Edges

theorem W4_v3 (c : Dev nD) : W4 m ρ c (Proc.devRef .tc main_v3) = W3 m ρ c (Proc.devRef .tc main_v3) := W4_edge m ρ c (by decide)
theorem W4_v7 (c : Dev nD) : W4 m ρ c (Proc.devRef .tc main_v7) = W3 m ρ c (Proc.devRef .tc main_v7) := W4_edge m ρ c (by decide)
theorem W4_v30 (c : Dev nD) : W4 m ρ c (Proc.devRef .tc main_v30) = W3 m ρ c (Proc.devRef .tc main_v30) := W4_edge m ρ c (by decide)

theorem W7_v3 (c : Dev nD) : W7 m ρ c (Proc.devRef .tc main_v3) = W3 m ρ c (Proc.devRef .tc main_v3) :=
  W7_edge m ρ c (by not_written hostOps1) (by decide) (by decide) (by decide)
theorem W7_v7 (c : Dev nD) : W7 m ρ c (Proc.devRef .tc main_v7) = W3 m ρ c (Proc.devRef .tc main_v7) :=
  W7_edge m ρ c (by not_written hostOps1) (by decide) (by decide) (by decide)
theorem W7_v30 (c : Dev nD) : W7 m ρ c (Proc.devRef .tc main_v30) = W3 m ρ c (Proc.devRef .tc main_v30) :=
  W7_edge m ρ c (by not_written hostOps1) (by decide) (by decide) (by decide)

theorem W10_v3 (c : Dev nD) : W10 m ρ c (Proc.devRef .tc main_v3) = W3 m ρ c (Proc.devRef .tc main_v3) :=
  W10_edge m ρ c (by not_written hostOps1) (by not_written hostOps3) (by decide) (by decide) (by decide) (by decide) (by decide)
theorem W10_v7 (c : Dev nD) : W10 m ρ c (Proc.devRef .tc main_v7) = W3 m ρ c (Proc.devRef .tc main_v7) :=
  W10_edge m ρ c (by not_written hostOps1) (by not_written hostOps3) (by decide) (by decide) (by decide) (by decide) (by decide)
theorem W10_v30 (c : Dev nD) : W10 m ρ c (Proc.devRef .tc main_v30) = W3 m ρ c (Proc.devRef .tc main_v30) :=
  W10_edge m ρ c (by not_written hostOps1) (by not_written hostOps3) (by decide) (by decide) (by decide) (by decide) (by decide)

end Cert.KernelIdeal.Gen

end
-- ==== Proof.Fold.lean ====
import proofs.«106519_j66838281061050_1_alg».proof.Proof.Keep
import proofs.«106519_j66838281061050_1_alg».proof.Proof.RefRead

/-!
  The host stretches of the kernel's program, read in the reference's stage functions. Both programs apply the
  same host operations around their layers: they build the edge endpoints (the edge list with one self loop per
  node appended) and the symmetric edge weights 1/sqrt(deg) at both endpoints; for each layer they gather the
  projected rows along the source endpoints, scale them by the edge weight and sum them per destination node; and
  at the end they average the node outputs per graph and apply tanh. So once the array a stretch starts from is
  known to be the reference's stage, what the stretch leaves is the reference's next stage: the same operations of
  the same operands. Nothing here depends on the number system, so the float family is a variable.
-/

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo
open Cert.ReferenceIdeal.ReadP

variable {F : FTy → Type} [FloatOps F]
variable (m : (ℓ : Loc nD τ sig) → Buf (Elt F) ℓ) (ρ : Dev nD → PrngReg)

/-! ## Before the first layer: the edge endpoints and weights, functions of the edge list alone -/

/-- The source endpoints: the edge list's first row with the self loops appended. -/
theorem W3_v3 (c : Dev nD) :
    W3 m ρ c (Proc.devRef .tc main_v3) = val_main_v3 (F := F) (m ((c : Thread nD τ).loc main_arg1)) := by
  rw [W3_to_W1 m ρ c (by not_written hostOps0_1) (by not_written hostOps0_2)]
  show StableHlo.after hostOps0 (W0 m ρ c) (Proc.devRef .tc main_v3) = _
  after_results
  rfl

/-- The destination endpoints: the edge list's second row with the self loops appended. -/
theorem W3_v7 (c : Dev nD) :
    W3 m ρ c (Proc.devRef .tc main_v7) = val_main_v7 (F := F) (m ((c : Thread nD τ).loc main_arg1)) := by
  rw [W3_to_W1 m ρ c (by not_written hostOps0_1) (by not_written hostOps0_2)]
  show StableHlo.after hostOps0 (W0 m ρ c) (Proc.devRef .tc main_v7) = _
  after_results
  rfl

/-- The edge weights: the inverse square roots of the degrees at the two endpoints, multiplied. -/
theorem W3_v30 (c : Dev nD) :
    W3 m ρ c (Proc.devRef .tc main_v30) = val_main_v30 (F := F) (m ((c : Thread nD τ).loc main_arg1)) := by
  show StableHlo.after hostOps0_2 (StableHlo.after hostOps0_1 (StableHlo.after hostOps0 (W0 m ρ c))) (Proc.devRef .tc main_v30) = _
  after_results_simp
  rfl

/-! ## The three aggregation stretches and the pooling tail, each from the stage its layer's array holds -/

section Stretches

variable (c : Dev nD)
variable (x0 : (⟨S100000x3, .f32⟩ : BufTy).Contents (Elt F)) (x1 : (⟨S2x1600000, .i32⟩ : BufTy).Contents (Elt F))
  (x2 : (⟨S100000, .i32⟩ : BufTy).Contents (Elt F)) (x3 : (⟨S3x64, .f32⟩ : BufTy).Contents (Elt F))
  (x4 : (⟨S64, .f32⟩ : BufTy).Contents (Elt F)) (x5 : (⟨S64x64, .f32⟩ : BufTy).Contents (Elt F))
  (x6 : (⟨S64, .f32⟩ : BufTy).Contents (Elt F)) (x7 : (⟨S64x24, .f32⟩ : BufTy).Contents (Elt F))
  (x8 : (⟨S24, .f32⟩ : BufTy).Contents (Elt F))

/-- The first aggregation: rows of the first projection gathered along the sources, scaled, summed per destination. -/
theorem W5_v44_of
    (e31 : W4 m ρ c (Proc.devRef .tc main_v31) = val_main_v31 (F := F) x0 x3)
    (e3 : W4 m ρ c (Proc.devRef .tc main_v3) = val_main_v3 (F := F) x1)
    (e7 : W4 m ρ c (Proc.devRef .tc main_v7) = val_main_v7 (F := F) x1)
    (e30 : W4 m ρ c (Proc.devRef .tc main_v30) = val_main_v30 (F := F) x1) :
    W5 m ρ c (Proc.devRef .tc main_v44) = val_main_v44 (F := F) x0 x1 x3 := by
  show StableHlo.after hostOps1 (W4 m ρ c) (Proc.devRef .tc main_v44) = _
  after_results_simp
  rw [e31, e3, e7, e30]
  rfl

/-- The second aggregation, of the second projection. -/
theorem W8_v59_of
    (e46 : W7 m ρ c (Proc.devRef .tc main_v46) = val_main_v49 (F := F) x0 x1 x3 x4 x5)
    (e3 : W7 m ρ c (Proc.devRef .tc main_v3) = val_main_v3 (F := F) x1)
    (e7 : W7 m ρ c (Proc.devRef .tc main_v7) = val_main_v7 (F := F) x1)
    (e30 : W7 m ρ c (Proc.devRef .tc main_v30) = val_main_v30 (F := F) x1) :
    W8 m ρ c (Proc.devRef .tc main_v59) = val_main_v62 (F := F) x0 x1 x3 x4 x5 := by
  show StableHlo.after hostOps3 (W7 m ρ c) (Proc.devRef .tc main_v59) = _
  after_results_simp
  rw [e46, e3, e7, e30]
  rfl

/-- The third aggregation, of the third projection. -/
theorem W11_v74_of
    (e61 : W10 m ρ c (Proc.devRef .tc main_v61) = val_main_v67 (F := F) x0 x1 x3 x4 x5 x6 x7)
    (e3 : W10 m ρ c (Proc.devRef .tc main_v3) = val_main_v3 (F := F) x1)
    (e7 : W10 m ρ c (Proc.devRef .tc main_v7) = val_main_v7 (F := F) x1)
    (e30 : W10 m ρ c (Proc.devRef .tc main_v30) = val_main_v30 (F := F) x1) :
    W11 m ρ c (Proc.devRef .tc main_v74) = val_main_v80 (F := F) x0 x1 x3 x4 x5 x6 x7 := by
  show StableHlo.after hostOps5 (W10 m ρ c) (Proc.devRef .tc main_v74) = _
  after_results_simp
  rw [e61, e3, e7, e30]
  rfl

/-- The pooling tail: node outputs summed per graph, divided by the graph's node count (at least one), then tanh. -/
theorem W13_v88_of
    (e75 : W12 m ρ c (Proc.devRef .tc main_v75) = val_main_v83 (F := F) x0 x1 x3 x4 x5 x6 x7 x8)
    (e2 : W12 m ρ c (Proc.devRef .tc main_arg2) = x2) :
    W13 m ρ c (Proc.devRef .tc main_v88) = val_main_v96 (F := F) x0 x1 x2 x3 x4 x5 x6 x7 x8 := by
  show StableHlo.after hostOps6 (W12 m ρ c) (Proc.devRef .tc main_v88) = _
  after_results_simp
  rw [e75, e2]
  rfl

end Stretches

end Cert.KernelIdeal.Fold

end
-- ==== Proof.Spec.lean ====
import Idealize.ShloMosaic.PureOps.Ideal.Laws
import Idealize.ShloMosaic.Lib.ValueIdx

/-!
  The array functions one graph-convolution layer applies to its node features, read entry by entry over the
  extended reals: the dense projection x·w (entry (p, q) is the sum over k of x(p, k)·w(k, q)), the bias row added
  to every row, and the rectifier. Between them a layer gathers rows along edges, scales them and sums them per
  destination node; that part is the same text in both programs and never opened here.
-/

noncomputable section

open scoped BigOperators

namespace Cert.Gcn

open Idealize.ShloMosaic Idealize.ShloMosaic.ValueIdx

/-- The dense projection of M rows of K features onto N features: entry (p, q) is Σ_k x(p, k)·w(k, q). -/
def dense {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- The bias row b added to every row of x: entry (p, q) is x(p, q) + b(q). -/
def addRow {M N : Nat} (x : (⟨2, ![M, N]⟩ : Shape).Idx → EReal) (b : (⟨1, ![N]⟩ : Shape).Idx → EReal) :
    (⟨2, ![M, N]⟩ : Shape).Idx → EReal :=
  fun i => x i + b (ix1 (i 1))

/-- The rectifier: every entry replaced by its maximum with zero. -/
def relu {s : Shape} (x : s.Idx → EReal) : s.Idx → EReal :=
  fun i => max (x i) 0

theorem dense_apply {M K N : Nat} (x : (⟨2, ![M, K]⟩ : Shape).Idx → EReal) (w : (⟨2, ![K, N]⟩ : Shape).Idx → EReal)
    (p : Fin M) (q : Fin N) : dense x w (ix2 p q) = ∑ k : Fin K, x (ix2 p k) * w (ix2 k q) := rfl

theorem addRow_apply {M N : Nat} (x : (⟨2, ![M, N]⟩ : Shape).Idx → EReal) (b : (⟨1, ![N]⟩ : Shape).Idx → EReal)
    (p : Fin M) (q : Fin N) : addRow x b (ix2 p q) = x (ix2 p q) + b (ix1 q) := rfl

theorem relu_apply {s : Shape} (x : s.Idx → EReal) (i : s.Idx) : relu x i = max (x i) 0 := rfl

end Cert.Gcn

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Dense0.lean ====
import proofs.«106519_j66838281061050_1_alg».proof.Proof.Gen.KernelIdeal.Frame
import proofs.«106519_j66838281061050_1_alg».proof.Proof.Spec
import proofs.«106519_j66838281061050_1_alg».proof.Proof.LibPlainDot
import Idealize.ShloMosaic.Lib.Pipeline.Value

/-!
  The first dense projection. The launch walks the 100000 node rows in ten blocks of 10000; at block t the body
  multiplies rows 10000·t … 10000·t + 9999 of the position array (3 columns) by the whole 3 × 64 weight array into
  a zero accumulator and writes the product to the same rows of the output. Over the extended reals a change of
  float format is the identity, so entry (p, q) of a block is Σ_k x(10000·t + p, k)·w(k, q): block t of the dense
  projection of the whole arrays. The ten blocks tile the output, so after the launch the output array IS the
  dense projection of the two arrays the region found.
-/

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.Pipeline (Dat)
open Idealize.ShloMosaic.ValueIdx Cert.Gcn
open scoped BigOperators

variable (V : (c : Dev nD) → (b : Ref sig .tc) → Buf (Elt Ideal) ((c : Thread nD τ).loc b))

/-- The node positions and the first weight array as the region finds them, at their literal types. -/
abbrev xarr (c : Dev nD) : Vec Ideal S100000x3 .f32 := V c main_arg0
abbrev warr (c : Dev nD) : Vec Ideal S3x64 .f32 := V c main_arg3

theorem hz : (![0, 0] : Fin 2 → Nat) = fun _ => 0 := funext fun a => by fin_cases a <;> rfl

/-- The body's product at entry (p, q) of a block: the sum over the 3 position columns. -/
theorem pay_apply (x : Vec Ideal S10000x3 .f32) (w : Vec Ideal S3x64 .f32) (p : Fin 10000) (q : Fin 64) :
    k0_pay1 x w (ix2 p q) = ∑ k : Fin 3, x (ix2 p k) * w (ix2 k q) := by
  unfold k0_pay1
  exact Cert.Lib.PlainDot.matmul_zero_apply dot_S10000x3_S3x64_S10000x64_1_0_0_1_n_n rfl rfl rfl rfl rfl rfl none _ _ p q

/-- The printed index maps over the ten points: the row block of the input moves with the output's, at point t it is
    block t; every column block, and the weight's only block, is block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense projection of the arrays as the region finds them. -/
theorem flushed_eq (c : Dev nD) (t : Fin cfg0.N) :
    (dat0 V c).flushed 2 t = ((cfg0.win 2).blk t).view.read (Elt Ideal)
      (dense (xarr V c) (warr V c)) := by
  show (cfg0.win 2).cut (grid0.coords t) ((dat0 V c).after 2 t) = _
  rw [after0_2]
  unfold out0_2
  rw [View.canon_unit_zero hz]
  simp only [View.ld_unit_zero (S := S10000x3) hz, View.ld_unit_zero (S := S3x64) hz]
  obtain ⟨e00, e01, e10, e11, e20, e21⟩ := idx_facts t
  funext j
  obtain ⟨p, q, rfl⟩ : ∃ (p : Fin 10000) (q : Fin 64), j = ix2 p q := ⟨j 0, j 1, eq_ix2 j⟩
  refine (pay_apply (iblk0 V c 0 t) (iblk0 V c 1 t) p q).trans ?_
  show _ = dense (xarr V c) (warr V c)
    (((cfg0.win 2).blk t).view.emb (ix2 p q))
  unfold dense
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 3 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 3 + 1 * k.val = k.val; omega
    | ⟨1, _⟩ => show win0_1.index t (1 : Fin 2) * 64 + 1 * q.val = win0_2.index t (1 : Fin 2) * 64 + 1 * q.val; omega
  show xarr V c (((cfg0.win 0).blk t).view.emb (ix2 p k)) * warr V c (((cfg0.win 1).blk t).view.emb (ix2 k q)) = _
  rw [hx, hw]
  rfl

/-- An index of the output array lies in point t's block iff each coordinate lies in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row r of the output lies in the block of point r / 10000: the ten blocks tile the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by show _ < grid0.N; rw [N_0]; omega
  obtain ⟨-, -, -, -, e20, e21⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val ∧ (i 1).val < win0_2.index ⟨(i 0).val / 10000, hN⟩ (1 : Fin 2) * 64 + 64
    rw [e21]; omega

/-- After the launch the output array is the dense projection of the two arrays the region found. -/
theorem array_eq (c : Dev nD) :
    (dat0 V c).arrAt 2 cfg0.N = dense (xarr V c) (warr V c) :=
  (dat0 V c).arrAt_eq_of_cover 2 _ (fun t _ => flushed_eq V c t) cover

end Cert.KernelIdeal.Dense0

end
-- ==== Proof.Bias1.lean ====
import proofs.«106519_j66838281061050_1_alg».proof.Proof.Gen.KernelIdeal.Frame
import proofs.«106519_j66838281061050_1_alg».proof.Proof.Spec
import Idealize.ShloMosaic.Lib.ValueLayout
import Idealize.ShloMosaic.Lib.Pipeline.Value

/-!
  The first bias and rectifier. The launch walks the 100000 rows in ten blocks of 10000; at block t the body adds
  the 64-entry bias, laid out as one row and repeated down the block, to rows 10000·t … 10000·t + 9999 of the
  aggregated features and takes the maximum with zero. Entry (p, q) of a block is max (x(10000·t + p, q) + b(q), 0):
  block t of the rectified sum of the whole array and the bias row. The ten blocks tile the output, so after the
  launch the output array IS relu (x + b) of the two arrays the region found.
-/

set_option maxRecDepth 16384

noncomputable section

namespace Cert.KernelIdeal.Bias1

open Cert.KernelIdeal Cert.KernelIdeal.Gen Idealize.ShloMosaic Idealize.ShloMosaic.TcCoe Idealize.SL.Sem
open Idealize.ShloMosaic.Pipeline (Dat)
open Idealize.ShloMosaic.ValueIdx Cert.Gcn

variable (V : (c : Dev nD) → (b : Ref sig .tc) → Buf (Elt Ideal) ((c : Thread nD τ).loc b))

/-- The aggregated features and the first bias as the region finds them, at their literal types. -/
abbrev xarr (c : Dev nD) : Vec Ideal S100000x64 .f32 := V c main_v44
abbrev barr (c : Dev nD) : Vec Ideal S64 .f32 := V c main_arg4

theorem hz2 : (![0, 0] : Fin 2 → Nat) = fun _ => 0 := funext fun a => by fin_cases a <;> rfl
theorem hz1 : (![0] : Fin 1 → Nat) = fun _ => 0 := funext fun a => by fin_cases a <;> rfl

/-- The body's value at entry (p, q) of a block: the feature plus the bias of its column, rectified. -/
theorem pay_apply (x : Vec Ideal S10000x64 .f32) (b : Vec Ideal S64 .f32) (p : Fin 10000) (q : Fin 64) :
    k1_pay1 x b (ix2 p q) = max (x (ix2 p q) + b (ix1 q)) 0 := by
  unfold k1_pay1
  show max (shapeCast S10000x64 x shapeCasts_S10000x64_S10000x64 (ix2 p q)
      + broadcastTo S10000x64 (shapeCast S1x64 b shapeCasts_S64_S1x64) broadcasts_S1x64_S10000x64 (ix2 p q))
    (Ideal.ofBits .f32 0x00000000#32) = _
  rw [shapeCast_self, broadcastTo_1b_ab_apply, shapeCast_a_1a_apply, Ideal.ofBits_zero_f32]

/-- The printed index maps over the ten points: the input's row block moves with the output's, at point t it is
    block t; every column block, and the bias's only block, is block 0. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the rectified sum of the arrays as the region finds them. -/
theorem flushed_eq (c : Dev nD) (t : Fin cfg1.N) :
    (dat1 V c).flushed 2 t = ((cfg1.win 2).blk t).view.read (Elt Ideal) (relu (addRow (xarr V c) (barr V c))) := by
  show (cfg1.win 2).cut (grid1.coords t) ((dat1 V c).after 2 t) = _
  rw [after1_2]
  unfold out1_2
  rw [View.canon_unit_zero hz2]
  simp only [View.ld_unit_zero (S := S10000x64) hz2, View.ld_unit_zero (S := S64) hz1]
  obtain ⟨e00, e01, e10, e20, e21⟩ := idx_facts t
  funext j
  obtain ⟨p, q, rfl⟩ : ∃ (p : Fin 10000) (q : Fin 64), j = ix2 p q := ⟨j 0, j 1, eq_ix2 j⟩
  refine (pay_apply (iblk1 V c 0 t) (iblk1 V c 1 t) p q).trans ?_
  show _ = relu (addRow (xarr V c) (barr V c)) (((cfg1.win 2).blk t).view.emb (ix2 p q))
  unfold relu addRow
  have hx : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have hb : ((cfg1.win 1).blk t).view.emb (ix1 q) = ix1 ((((cfg1.win 2).blk t).view.emb (ix2 p q)) 1) := by
    funext a; apply Fin.ext
    match a with
    | ⟨0, _⟩ => show win1_1.index t (0 : Fin 1) * 64 + 1 * q.val = win1_2.index t (1 : Fin 2) * 64 + 1 * q.val; omega
  show max (xarr V c (((cfg1.win 0).blk t).view.emb (ix2 p q)) + barr V c (((cfg1.win 1).blk t).view.emb (ix1 q))) 0 = _
  rw [hx, hb]
  rfl

/-- An index of the output array lies in point t's block iff each coordinate lies in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row r of the output lies in the block of point r / 10000: the ten blocks tile the array. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := by show _ < grid1.N; rw [N_1]; omega
  obtain ⟨-, -, -, e20, e21⟩ := idx_facts ⟨(i 0).val / 10000, hN⟩
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, hN⟩ (1 : Fin 2) * 64 ≤ (i 1).val ∧ (i 1).val < win1_2.index ⟨(i 0).val / 10000, hN⟩ (1 : Fin 2) * 64 + 64
    rw [e21]; omega

/-- After the launch the output array is the rectified sum of the feature array and the bias row the region found. -/
theorem array_eq (c : Dev nD) :
    (dat1 V c).arrAt 2 cfg1.N = relu (addRow (xarr V c) (barr V c)) :=
  (dat1 V c).arrAt_eq_of_cover 2 _ (fun t _ => flushed_eq V c t) cover

end Cert.KernelIdeal.Bias1

end
-- ==== Proof.Dense2.lean ====
import proofs.«106519_j66838281061050_1_alg».proof.Proof.Gen.KernelIdeal.Frame
import proofs.«106519_j66838281061050_1_alg».proof.Proof.Spec
import proofs.«106519_j66838281061050_1_alg».proof.Proof.LibPlainDot
import Idealize.ShloMosaic.Lib.Pipeline.Value

/-!
  The second dense projection. The launch walks the 100000 rows in ten blocks of 10000; at block t the body
  multiplies rows 10000·t … 10000·t + 9999 of the first layer's rectified features (64 columns) by the whole
  64 × 64 weight array into a zero accumulator and writes the product to the same rows of the output. Over the
  extended reals a change of float format is the identity, so entry (p, q) of a block is
  Σ_k x(10000·t + p, k)·w(k, q): block t of the dense projection of the whole arrays. The ten blocks tile the
  output, so after the launch the output array IS the dense projection of the two arrays the region found.
-/

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.Pipeline (Dat)
open Idealize.ShloMosaic.ValueIdx Cert.Gcn
open scoped BigOperators

variable (V : (c : Dev nD) → (b : Ref sig .tc) → Buf (Elt Ideal) ((c : Thread nD τ).loc b))

/-- The first layer's features and the second weight array as the region finds them, at their literal types. -/
abbrev xarr (c : Dev nD) : Vec Ideal S100000x64 .f32 := V c main_v45
abbrev warr (c : Dev nD) : Vec Ideal S64x64 .f32 := V c main_arg5

theorem hz : (![0, 0] : Fin 2 → Nat) = fun _ => 0 := funext fun a => by fin_cases a <;> rfl

/-- The body's product at entry (p, q) of a block: the sum over the 64 feature columns. -/
theorem pay_apply (x : Vec Ideal S10000x64 .f32) (w : Vec Ideal S64x64 .f32) (p : Fin 10000) (q : Fin 64) :
    k2_pay1 x w (ix2 p q) = ∑ k : Fin 64, x (ix2 p k) * w (ix2 k q) := by
  unfold k2_pay1
  refine (Cert.Lib.PlainDot.matmul_zero_apply dot_S10000x64_S64x64_S10000x64_1_0_0_1_n_n rfl rfl rfl rfl rfl rfl none _ _ p q).trans ?_
  refine Finset.sum_congr rfl fun k _ => ?_
  show shapeCast S10000x64 x shapeCasts_S10000x64_S10000x64 (ix2 p k) * w (ix2 k q) = _
  rw [shapeCast_self]

/-- The printed index maps over the ten points: the row block of the input moves with the output's, at point t it is
    block t; every column block, and the weight's only block, is block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the dense projection of the arrays as the region finds them. -/
theorem flushed_eq (c : Dev nD) (t : Fin cfg2.N) :
    (dat2 V c).flushed 2 t = ((cfg2.win 2).blk t).view.read (Elt Ideal) (dense (xarr V c) (warr V c)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e00, e01, e10, e11, e20, e21⟩ := idx_facts t
  funext j
  obtain ⟨p, q, rfl⟩ : ∃ (p : Fin 10000) (q : Fin 64), j = ix2 p q := ⟨j 0, j 1, eq_ix2 j⟩
  refine (pay_apply (iblk2 V c 0 t) (iblk2 V c 1 t) p q).trans ?_
  show _ = dense (xarr V c) (warr V c) (((cfg2.win 2).blk t).view.emb (ix2 p q))
  unfold dense
  refine Finset.sum_congr rfl fun k _ => ?_
  have hx : ((cfg2.win 0).blk t).view.emb (ix2 p k) = ix2 ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have hw : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  show xarr V c (((cfg2.win 0).blk t).view.emb (ix2 p k)) * warr V c (((cfg2.win 1).blk t).view.emb (ix2 k q)) = _
  rw [hx, hw]
  rfl

/-- An index of the output array lies in point t's block iff each coordinate lies in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row r of the output lies in the block of point r / 10000: the ten blocks tile the array. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 10000 < cfg2.N := by show _ < grid2.N; rw [N_2]; omega
  obtain ⟨-, -, -, -, e20, e21⟩ := idx_facts ⟨(i 0).val / 10000, hN⟩
  refine ⟨⟨(i 0).val / 10000, hN⟩, flush2_2 _, ?_⟩
  rw [mem_blk]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, hN⟩ (1 : Fin 2) * 64 ≤ (i 1).val ∧ (i 1).val < win2_2.index ⟨(i 0).val / 10000, hN⟩ (1 : Fin 2) * 64 + 64
    rw [e21]; omega

/-- After the launch the output array is the dense projection of the two arrays the region found. -/
theorem array_eq (c : Dev nD) :
    (dat2 V c).arrAt 2 cfg2.N = dense (xarr V c) (warr V c) :=
  (dat2 V c).arrAt_eq_of_cover 2 _ (fun t _ => flushed_eq V c t) cover

end Cert.KernelIdeal.Dense2

end
-- ==== Proof.Bias3.lean ====
import proofs.«106519_j66838281061050_1_alg».proof.Proof.Gen.KernelIdeal.Frame
import proofs.«106519_j66838281061050_1_alg».proof.Proof.Spec
import Idealize.ShloMosaic.Lib.ValueLayout
import Idealize.ShloMosaic.Lib.Pipeline.Value

/-!
  The second bias and rectifier. The launch walks the 100000 rows in ten blocks of 10000; at block t the body adds
  the 64-entry bias, laid out as one row and repeated down the block, to rows 10000·t … 10000·t + 9999 of the
  second layer's aggregated features and takes the maximum with zero. Entry (p, q) of a block is
  max (x(10000·t + p, q) + b(q), 0): block t of the rectified sum of the whole array and the bias row. The ten
  blocks tile the output, so after the launch the output array IS relu (x + b) of the two arrays the region found.
-/

set_option maxRecDepth 16384

noncomputable section

namespace Cert.KernelIdeal.Bias3

open Cert.KernelIdeal Cert.KernelIdeal.Gen Idealize.ShloMosaic Idealize.ShloMosaic.TcCoe Idealize.SL.Sem
open Idealize.ShloMosaic.Pipeline (Dat)
open Idealize.ShloMosaic.ValueIdx Cert.Gcn

variable (V : (c : Dev nD) → (b : Ref sig .tc) → Buf (Elt Ideal) ((c : Thread nD τ).loc b))

/-- The second layer's aggregated features and the second bias as the region finds them, at their literal types. -/
abbrev xarr (c : Dev nD) : Vec Ideal S100000x64 .f32 := V c main_v59
abbrev barr (c : Dev nD) : Vec Ideal S64 .f32 := V c main_arg6

theorem hz2 : (![0, 0] : Fin 2 → Nat) = fun _ => 0 := funext fun a => by fin_cases a <;> rfl
theorem hz1 : (![0] : Fin 1 → Nat) = fun _ => 0 := funext fun a => by fin_cases a <;> rfl

/-- The body's value at entry (p, q) of a block: the feature plus the bias of its column, rectified. -/
theorem pay_apply (x : Vec Ideal S10000x64 .f32) (b : Vec Ideal S64 .f32) (p : Fin 10000) (q : Fin 64) :
    k3_pay1 x b (ix2 p q) = max (x (ix2 p q) + b (ix1 q)) 0 := by
  unfold k3_pay1
  show max (shapeCast S10000x64 x shapeCasts_S10000x64_S10000x64 (ix2 p q)
      + broadcastTo S10000x64 (shapeCast S1x64 b shapeCasts_S64_S1x64) broadcasts_S1x64_S10000x64 (ix2 p q))
    (Ideal.ofBits .f32 0x00000000#32) = _
  rw [shapeCast_self, broadcastTo_1b_ab_apply, shapeCast_a_1a_apply, Ideal.ofBits_zero_f32]

/-- The printed index maps over the ten points: the input's row block moves with the output's, at point t it is
    block t; every column block, and the bias's only block, is block 0. -/
theorem idx_facts : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the rectified sum of the arrays as the region finds them. -/
theorem flushed_eq (c : Dev nD) (t : Fin cfg3.N) :
    (dat3 V c).flushed 2 t = ((cfg3.win 2).blk t).view.read (Elt Ideal) (relu (addRow (xarr V c) (barr V c))) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64) hz1]
  obtain ⟨e00, e01, e10, e20, e21⟩ := idx_facts t
  funext j
  obtain ⟨p, q, rfl⟩ : ∃ (p : Fin 10000) (q : Fin 64), j = ix2 p q := ⟨j 0, j 1, eq_ix2 j⟩
  refine (pay_apply (iblk3 V c 0 t) (iblk3 V c 1 t) p q).trans ?_
  show _ = relu (addRow (xarr V c) (barr V c)) (((cfg3.win 2).blk t).view.emb (ix2 p q))
  unfold relu addRow
  have hx : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have hb : ((cfg3.win 1).blk t).view.emb (ix1 q) = ix1 ((((cfg3.win 2).blk t).view.emb (ix2 p q)) 1) := by
    funext a; apply Fin.ext
    match a with
    | ⟨0, _⟩ => show win3_1.index t (0 : Fin 1) * 64 + 1 * q.val = win3_2.index t (1 : Fin 2) * 64 + 1 * q.val; omega
  show max (xarr V c (((cfg3.win 0).blk t).view.emb (ix2 p q)) + barr V c (((cfg3.win 1).blk t).view.emb (ix1 q))) 0 = _
  rw [hx, hb]
  rfl

/-- An index of the output array lies in point t's block iff each coordinate lies in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v60).slice (win3_2.rect t)).set ↔ _
  rw [View.set_slice_whole, Rect.mem_set_unit]
  exact Iff.rfl

/-- Row r of the output lies in the block of point r / 10000: the ten blocks tile the array. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 10000 < cfg3.N := by show _ < grid3.N; rw [N_3]; omega
  obtain ⟨-, -, -, e20, e21⟩ := idx_facts ⟨(i 0).val / 10000, hN⟩
  refine ⟨⟨(i 0).val / 10000, hN⟩, flush3_2 _, ?_⟩
  rw [mem_blk]
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win3_2.index ⟨(i 0).val / 10000, hN⟩ (1 : Fin 2) * 64 ≤ (i 1).val ∧ (i 1).val < win3_2.index ⟨(i 0).val / 10000, hN⟩ (1 : Fin 2) * 64 + 64
    rw [e21]; omega

/-- After the launch the output array is the rectified sum of the feature array and the bias row the region found. -/
theorem array_eq (c : Dev nD) :
    (dat3 V c).arrAt 2 cfg3.N = relu (addRow (xarr V c) (barr V c)) :=
  (dat3 V c).arrAt_eq_of_cover 2 _ (fun t _ => flushed_eq V c t) cover

end Cert.KernelIdeal.Bias3

end
-- ==== Proof.Dense4.lean ====
import proofs.«106519_j66838281061050_1_alg».proof.Proof.Gen.KernelIdeal.Frame
import proofs.«106519_j66838281061050_1_alg».proof.Proof.Spec
import proofs.«106519_j66838281061050_1_alg».proof.Proof.LibPlainDot
import Idealize.ShloMosaic.Lib.Pipeline.Value

/-!
  The third dense projection. The launch walks the 100000 rows in ten blocks of 10000; at block t the body
  multiplies rows 10000·t … 10000·t + 9999 of the second layer's rectified features (64 columns) by the whole
  64 × 24 weight array into a zero accumulator and writes the product to the same rows of the output. Over the
  extended reals a change of float format is the identity, so entry (p, q) of a block is
  Σ_k x(10000·t + p, k)·w(k, q): block t of the dense projection of the whole arrays. The ten blocks tile the
  output, so after the launch the output array IS the dense projection of the two arrays the region found.
-/

set_option maxRecDepth 16384

noncomputable section

namespace Cert.KernelIdeal.Dense4

open Cert.KernelIdeal Cert.KernelIdeal.Gen Idealize.ShloMosaic Idealize.ShloMosaic.TcCoe Idealize.SL.Sem
open Idealize.ShloMosaic.Pipeline (Dat)
open Idealize.ShloMosaic.ValueIdx Cert.Gcn
open scoped BigOperators

variable (V : (c : Dev nD) → (b : Ref sig .tc) → Buf (Elt Ideal) ((c : Thread nD τ).loc b))

/-- The second layer's features and the third weight array as the region finds them, at their literal types. -/
abbrev xarr (c : Dev nD) : Vec Ideal S100000x64 .f32 := V c main_v60
abbrev warr (c : Dev nD) : Vec Ideal S64x24 .f32 := V c main_arg7

theorem hz : (![0, 0] : Fin 2 → Nat) = fun _ => 0 := funext fun a => by fin_cases a <;> rfl

/-- The body's product at entry (p, q) of a block: the sum over the 64 feature columns. -/
theorem pay_apply (x : Vec Ideal S10000x64 .f32) (w : Vec Ideal S64x24 .f32) (p : Fin 10000) (q : Fin 24) :
    k4_pay1 x w (ix2 p q) = ∑ k : Fin 64, x (ix2 p k) * w (ix2 k q) := by
  unfold k4_pay1
  refine (Cert.Lib.PlainDot.matmul_zero_apply dot_S10000x64_S64x24_S10000x24_1_0_0_1_n_n rfl rfl rfl rfl rfl rfl none _ _ p q).trans ?_
  refine Finset.sum_congr rfl fun k _ => ?_
  show shapeCast S10000x64 x shapeCasts_S10000x64_S10000x64 (ix2 p k) * w (ix2 k q) = _
  rw [shapeCast_self]

/-- The printed index maps over the ten points: the row block of the input moves with the output's, at point t it is
    block t; every column block, and the weight's only block, is block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the dense projection of the arrays as the region finds them. -/
theorem flushed_eq (c : Dev nD) (t : Fin cfg4.N) :
    (dat4 V c).flushed 2 t = ((cfg4.win 2).blk t).view.read (Elt Ideal) (dense (xarr V c) (warr V c)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x24) hz]
  obtain ⟨e00, e01, e10, e11, e20, e21⟩ := idx_facts t
  funext j
  obtain ⟨p, q, rfl⟩ : ∃ (p : Fin 10000) (q : Fin 24), j = ix2 p q := ⟨j 0, j 1, eq_ix2 j⟩
  refine (pay_apply (iblk4 V c 0 t) (iblk4 V c 1 t) p q).trans ?_
  show _ = dense (xarr V c) (warr V c) (((cfg4.win 2).blk t).view.emb (ix2 p q))
  unfold dense
  refine Finset.sum_congr rfl fun k _ => ?_
  have hx : ((cfg4.win 0).blk t).view.emb (ix2 p k) = ix2 ((((cfg4.win 2).blk t).view.emb (ix2 p q)) 0) k := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 64 + 1 * k.val = k.val; omega
  have hw : ((cfg4.win 1).blk t).view.emb (ix2 k q) = ix2 k ((((cfg4.win 2).blk t).view.emb (ix2 p q)) 1) := by
    funext a; apply Fin.ext
    match a with
    | ⟨0, _⟩ => show win4_1.index t (0 : Fin 2) * 64 + 1 * k.val = k.val; omega
    | ⟨1, _⟩ => show win4_1.index t (1 : Fin 2) * 24 + 1 * q.val = win4_2.index t (1 : Fin 2) * 24 + 1 * q.val; omega
  show xarr V c (((cfg4.win 0).blk t).view.emb (ix2 p k)) * warr V c (((cfg4.win 1).blk t).view.emb (ix2 k q)) = _
  rw [hx, hw]
  rfl

/-- An index of the output array lies in point t's block iff each coordinate lies in the block's range on its axis. -/
theorem mem_blk (t : Fin cfg4.N) (i : S100000x24.Idx) :
    i ∈ ((cfg4.win 2).blk t).view.set ↔ ∀ a : Fin 2, win4_2.index t a * S10000x24.size a ≤ (i a).val ∧ (i a).val < win4_2.index t a * S10000x24.size a + S10000x24.size a := by
  show i ∈ ((View.whole main_v61).slice (win4_2.rect t)).set ↔ _
  rw [View.set_slice_whole, Rect.mem_set_unit]
  exact Iff.rfl

/-- Row r of the output lies in the block of point r / 10000: the ten blocks tile the array. -/
theorem cover (i : S100000x24.Idx) :
    ∃ t : Fin cfg4.N, (cfg4.win 2).flush t = true ∧ i ∈ ((cfg4.win 2).blk t).view.set := by
  have hi0 : (i 0).val < 100000 := (i 0).isLt
  have hi1 : (i 1).val < 24 := (i 1).isLt
  have hN : (i 0).val / 10000 < cfg4.N := by show _ < grid4.N; rw [N_4]; omega
  obtain ⟨-, -, -, -, e20, e21⟩ := idx_facts ⟨(i 0).val / 10000, hN⟩
  refine ⟨⟨(i 0).val / 10000, hN⟩, flush4_2 _, ?_⟩
  rw [mem_blk]
  intro a
  match a with
  | ⟨0, _⟩ =>
    show win4_2.index ⟨(i 0).val / 10000, hN⟩ (0 : Fin 2) * 10000 ≤ (i 0).val ∧ (i 0).val < win4_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win4_2.index ⟨(i 0).val / 10000, hN⟩ (1 : Fin 2) * 24 ≤ (i 1).val ∧ (i 1).val < win4_2.index ⟨(i 0).val / 10000, hN⟩ (1 : Fin 2) * 24 + 24
    rw [e21]; omega

/-- After the launch the output array is the dense projection of the two arrays the region found. -/
theorem array_eq (c : Dev nD) :
    (dat4 V c).arrAt 2 cfg4.N = dense (xarr V c) (warr V c) :=
  (dat4 V c).arrAt_eq_of_cover 2 _ (fun t _ => flushed_eq V c t) cover

end Cert.KernelIdeal.Dense4

end
-- ==== Proof.Bias5.lean ====
import proofs.«106519_j66838281061050_1_alg».proof.Proof.Gen.KernelIdeal.Frame
import proofs.«106519_j66838281061050_1_alg».proof.Proof.Spec
import Idealize.ShloMosaic.Lib.ValueLayout
import Idealize.ShloMosaic.Lib.Pipeline.Value

/-!
  The last bias. The launch walks the 100000 rows in ten blocks of 10000; at block t the body adds the 24-entry
  bias, laid out as one row and repeated down the block, to rows 10000·t … 10000·t + 9999 of the third layer's
  aggregated features; this layer has no rectifier. Entry (p, q) of a block is x(10000·t + p, q) + b(q): block t
  of the sum of the whole array and the bias row. The ten blocks tile the output, so after the launch the output
  array IS x + b of the two arrays the region found.
-/

set_option maxRecDepth 16384

noncomputable section

namespace Cert.KernelIdeal.Bias5

open Cert.KernelIdeal Cert.KernelIdeal.Gen Idealize.ShloMosaic Idealize.ShloMosaic.TcCoe Idealize.SL.Sem
open Idealize.ShloMosaic.Pipeline (Dat)
open Idealize.ShloMosaic.ValueIdx Cert.Gcn

variable (V : (c : Dev nD) → (b : Ref sig .tc) → Buf (Elt Ideal) ((c : Thread nD τ).loc b))

/-- The third layer's aggregated features and the third bias as the region finds them, at their literal types. -/
abbrev xarr (c : Dev nD) : Vec Ideal S100000x24 .f32 := V c main_v74
abbrev barr (c : Dev nD) : Vec Ideal S24 .f32 := V c main_arg8

theorem hz2 : (![0, 0] : Fin 2 → Nat) = fun _ => 0 := funext fun a => by fin_cases a <;> rfl
theorem hz1 : (![0] : Fin 1 → Nat) = fun _ => 0 := funext fun a => by fin_cases a <;> rfl

/-- The body's value at entry (p, q) of a block: the feature plus the bias of its column. -/
theorem pay_apply (x : Vec Ideal S10000x24 .f32) (b : Vec Ideal S24 .f32) (p : Fin 10000) (q : Fin 24) :
    k5_pay1 x b (ix2 p q) = x (ix2 p q) + b (ix1 q) := by
  unfold k5_pay1
  show shapeCast S10000x24 x shapeCasts_S10000x24_S10000x24 (ix2 p q)
      + broadcastTo S10000x24 (shapeCast S1x24 b shapeCasts_S24_S1x24) broadcasts_S1x24_S10000x24 (ix2 p q) = _
  rw [shapeCast_self, broadcastTo_1b_ab_apply, shapeCast_a_1a_apply]

/-- The printed index maps over the ten points: the input's row block moves with the output's, at point t it is
    block t; every column block, and the bias's only block, is block 0. -/
theorem idx_facts : ∀ t : Fin cfg5.N,
    win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point t writes back is block t of the sum of the arrays as the region finds them. -/
theorem flushed_eq (c : Dev nD) (t : Fin cfg5.N) :
    (dat5 V c).flushed 2 t = ((cfg5.win 2).blk t).view.read (Elt Ideal) (addRow (xarr V c) (barr V c)) := by
  show (cfg5.win 2).cut (grid5.coords t) ((dat5 V c).after 2 t) = _
  rw [after5_2]
  unfold out5_2
  rw [View.canon_unit_zero hz2]
  simp only [View.ld_unit_zero (S := S10000x24) hz2, View.ld_unit_zero (S := S24) hz1]
  obtain ⟨e00, e01, e10, e20, e21⟩ := idx_facts t
  funext j
  obtain ⟨p, q, rfl⟩ : ∃ (p : Fin 10000) (q : Fin 24), j = ix2 p q := ⟨j 0, j 1, eq_ix2 j⟩
  refine (pay_apply (iblk5 V c 0 t) (iblk5 V c 1 t) p q).trans ?_
  show _ = addRow (xarr V c) (barr V c) (((cfg5.win 2).blk t).view.emb (ix2 p q))
  unfold addRow
  have hx : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 24 + 1 * q.val = win5_2.index t (1 : Fin 2) * 24 + 1 * q.val; omega
  have hb : ((cfg5.win 1).blk t).view.emb (ix1 q) = ix1 ((((cfg5.win 2).blk t).view.emb (ix2 p q)) 1) := by
    funext a; apply Fin.ext
    match a with
    | ⟨0, _⟩ => show win5_1.index t (0 : Fin 1) * 24 + 1 * q.val = win5_2.index t (1 : Fin 2) * 24 + 1 * q.val; omega
  show xarr V c (((cfg5.win 0).blk t).view.emb (ix2 p q)) + barr V c (((cfg5.win 1).blk t).view.emb (ix1 q)) = _
  rw [hx, hb]
  rfl

/-- An index of the output array lies in point t's block iff each coordinate lies in the block's range on its axis. -/
theorem mem_blk (t : Fin cfg5.N) (i : S100000x24.Idx) :
    i ∈ ((cfg5.win 2).blk t).view.set ↔ ∀ a : Fin 2, win5_2.index t a * S10000x24.size a ≤ (i a).val ∧ (i a).val < win5_2.index t a * S10000x24.size a + S10000x24.size a := by
  show i ∈ ((View.whole main_v75).slice (win5_2.rect t)).set ↔ _
  rw [View.set_slice_whole, Rect.mem_set_unit]
  exact Iff.rfl

/-- Row r of the output lies in the block of point r / 10000: the ten blocks tile the array. -/
theorem cover (i : S100000x24.Idx) :
    ∃ t : Fin cfg5.N, (cfg5.win 2).flush t = true ∧ i ∈ ((cfg5.win 2).blk t).view.set := by
  have hi0 : (i 0).val < 100000 := (i 0).isLt
  have hi1 : (i 1).val < 24 := (i 1).isLt
  have hN : (i 0).val / 10000 < cfg5.N := by show _ < grid5.N; rw [N_5]; omega
  obtain ⟨-, -, -, e20, e21⟩ := idx_facts ⟨(i 0).val / 10000, hN⟩
  refine ⟨⟨(i 0).val / 10000, hN⟩, flush5_2 _, ?_⟩
  rw [mem_blk]
  intro a
  match a with
  | ⟨0, _⟩ =>
    show win5_2.index ⟨(i 0).val / 10000, hN⟩ (0 : Fin 2) * 10000 ≤ (i 0).val ∧ (i 0).val < win5_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win5_2.index ⟨(i 0).val / 10000, hN⟩ (1 : Fin 2) * 24 ≤ (i 1).val ∧ (i 1).val < win5_2.index ⟨(i 0).val / 10000, hN⟩ (1 : Fin 2) * 24 + 24
    rw [e21]; omega

/-- After the launch the output array is the sum of the feature array and the bias row the region found. -/
theorem array_eq (c : Dev nD) :
    (dat5 V c).arrAt 2 cfg5.N = addRow (xarr V c) (barr V c) :=
  (dat5 V c).arrAt_eq_of_cover 2 _ (fun t _ => flushed_eq V c t) cover

end Cert.KernelIdeal.Bias5

end
-- ==== Proof.RefStages.lean ====
import proofs.«106519_j66838281061050_1_alg».proof.Proof.RefRun
import proofs.«106519_j66838281061050_1_alg».proof.Proof.RefRead
import proofs.«106519_j66838281061050_1_alg».proof.Proof.Spec
import proofs.«106519_j66838281061050_1_alg».proof.Proof.LibPlainDot

/-!
  The reference's six layer stages, read as the array functions of the specification. Its three matrix products
  are dense projections (entry (p, q) is Σ_k l(p, k)·r(k, q)); its bias stages broadcast the bias to one row, then
  down all rows, and add — the bias row added to every row —; its two rectifiers take the maximum with a zero
  splat. Everything between these stages (the gathers along edges, the scaling, the sums per destination node)
  stays folded inside the stage functions.
-/

noncomputable section

namespace Cert.ReferenceIdeal.Layers

open Cert.ReferenceIdeal Cert.ReferenceIdeal.ReadP Idealize.ShloMosaic Idealize.ShloMosaic.TcCoe
open Idealize.ShloMosaic.ValueIdx Cert.Gcn
open scoped BigOperators

/-- The first matrix product is the dense projection of the positions onto the first weights. -/
theorem v31_eq (x0 : (⟨S100000x3, .f32⟩ : BufTy).Contents (Elt Ideal)) (x3 : (⟨S3x64, .f32⟩ : BufTy).Contents (Elt Ideal)) :
    val_main_v31 (F := Ideal) x0 x3 = dense x0 x3 := by
  funext i
  obtain ⟨p, q, rfl⟩ : ∃ (p : Fin 100000) (q : Fin 64), i = ix2 p q := ⟨i 0, i 1, eq_ix2 i⟩
  unfold val_main_v31
  simp only [Host.dotGeneral]
  exact Cert.Lib.PlainDot.dotGeneral_apply dot_S100000x3_S3x64_S100000x64_1_0_0_1_n_n rfl rfl rfl rfl rfl rfl none _ x0 x3 p q

/-- The first bias and rectifier: relu (aggregate + bias row). -/
theorem v48_eq (x0 : (⟨S100000x3, .f32⟩ : BufTy).Contents (Elt Ideal)) (x1 : (⟨S2x1600000, .i32⟩ : BufTy).Contents (Elt Ideal)) (x3 : (⟨S3x64, .f32⟩ : BufTy).Contents (Elt Ideal)) (x4 : (⟨S64, .f32⟩ : BufTy).Contents (Elt Ideal)) :
    val_main_v48 (F := Ideal) x0 x1 x3 x4 = relu (addRow (val_main_v44 (F := Ideal) x0 x1 x3) x4) := by
  funext i
  obtain ⟨p, q, rfl⟩ : ∃ (p : Fin 100000) (q : Fin 64), i = ix2 p q := ⟨i 0, i 1, eq_ix2 i⟩
  rw [val_main_v48_apply, val_main_v47_apply, val_main_call1_v0_apply, val_main_call1_cst_apply, val_main_v46_apply,
    val_main_v45_apply]
  have hidx : idx_main_v45 (idx_main_v46 (ix2 p q)) = ix1 q :=
    funext fun a => Fin.ext (by match a with | ⟨0, _⟩ => rfl)
  rw [hidx]
  show max (val_main_v44 (F := Ideal) x0 x1 x3 (ix2 p q) + x4 (ix1 q)) (Ideal.ofBits .f32 0x00000000#32) = max (_ + _) 0
  rw [Ideal.ofBits_zero_f32]

/-- The second matrix product is the dense projection of the first layer's features onto the second weights. -/
theorem v49_eq (x0 : (⟨S100000x3, .f32⟩ : BufTy).Contents (Elt Ideal)) (x1 : (⟨S2x1600000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) :
    val_main_v49 (F := Ideal) x0 x1 x3 x4 x5 = dense (val_main_v48 (F := Ideal) x0 x1 x3 x4) x5 := by
  funext i
  obtain ⟨p, q, rfl⟩ : ∃ (p : Fin 100000) (q : Fin 64), i = ix2 p q := ⟨i 0, i 1, eq_ix2 i⟩
  unfold val_main_v49
  generalize val_main_v48 (F := Ideal) x0 x1 x3 x4 = y
  simp only [Host.dotGeneral]
  exact Cert.Lib.PlainDot.dotGeneral_apply dot_S100000x64_S64x64_S100000x64_1_0_0_1_n_n rfl rfl rfl rfl rfl rfl none _ y x5 p q

/-- The second bias and rectifier. -/
theorem v66_eq (x0 : (⟨S100000x3, .f32⟩ : BufTy).Contents (Elt Ideal)) (x1 : (⟨S2x1600000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v66 (F := Ideal) x0 x1 x3 x4 x5 x6 = relu (addRow (val_main_v62 (F := Ideal) x0 x1 x3 x4 x5) x6) := by
  funext i
  obtain ⟨p, q, rfl⟩ : ∃ (p : Fin 100000) (q : Fin 64), i = ix2 p q := ⟨i 0, i 1, eq_ix2 i⟩
  rw [val_main_v66_apply, val_main_v65_apply, val_main_call2_v0_apply, val_main_call2_cst_apply, val_main_v64_apply,
    val_main_v63_apply]
  have hidx : idx_main_v63 (idx_main_v64 (ix2 p q)) = ix1 q :=
    funext fun a => Fin.ext (by match a with | ⟨0, _⟩ => rfl)
  rw [hidx]
  show max (val_main_v62 (F := Ideal) x0 x1 x3 x4 x5 (ix2 p q) + x6 (ix1 q)) (Ideal.ofBits .f32 0x00000000#32) = max (_ + _) 0
  rw [Ideal.ofBits_zero_f32]

/-- The third matrix product is the dense projection of the second layer's features onto the third weights. -/
theorem v67_eq (x0 : (⟨S100000x3, .f32⟩ : BufTy).Contents (Elt Ideal)) (x1 : (⟨S2x1600000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x24, .f32⟩ : BufTy).Contents (Elt Ideal)) :
    val_main_v67 (F := Ideal) x0 x1 x3 x4 x5 x6 x7 = dense (val_main_v66 (F := Ideal) x0 x1 x3 x4 x5 x6) x7 := by
  funext i
  obtain ⟨p, q, rfl⟩ : ∃ (p : Fin 100000) (q : Fin 24), i = ix2 p q := ⟨i 0, i 1, eq_ix2 i⟩
  unfold val_main_v67
  generalize val_main_v66 (F := Ideal) x0 x1 x3 x4 x5 x6 = y
  simp only [Host.dotGeneral]
  exact Cert.Lib.PlainDot.dotGeneral_apply dot_S100000x64_S64x24_S100000x24_1_0_0_1_n_n rfl rfl rfl rfl rfl rfl none _ y x7 p q

/-- The last bias: aggregate + bias row, no rectifier. -/
theorem v83_eq (x0 : (⟨S100000x3, .f32⟩ : BufTy).Contents (Elt Ideal)) (x1 : (⟨S2x1600000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x24, .f32⟩ : BufTy).Contents (Elt Ideal)) (x8 : (⟨S24, .f32⟩ : BufTy).Contents (Elt Ideal)) :
    val_main_v83 (F := Ideal) x0 x1 x3 x4 x5 x6 x7 x8 = addRow (val_main_v80 (F := Ideal) x0 x1 x3 x4 x5 x6 x7) x8 := by
  funext i
  obtain ⟨p, q, rfl⟩ : ∃ (p : Fin 100000) (q : Fin 24), i = ix2 p q := ⟨i 0, i 1, eq_ix2 i⟩
  rw [val_main_v83_apply, val_main_v82_apply, val_main_v81_apply]
  have hidx : idx_main_v81 (idx_main_v82 (ix2 p q)) = ix1 q :=
    funext fun a => Fin.ext (by match a with | ⟨0, _⟩ => rfl)
  rw [hidx]
  rfl

end Cert.ReferenceIdeal.Layers

end
-- ==== Proof.Chain.lean ====
import proofs.«106519_j66838281061050_1_alg».proof.Proof.Fold
import proofs.«106519_j66838281061050_1_alg».proof.Proof.Dense0
import proofs.«106519_j66838281061050_1_alg».proof.Proof.Bias1
import proofs.«106519_j66838281061050_1_alg».proof.Proof.Dense2
import proofs.«106519_j66838281061050_1_alg».proof.Proof.Bias3
import proofs.«106519_j66838281061050_1_alg».proof.Proof.Dense4
import proofs.«106519_j66838281061050_1_alg».proof.Proof.Bias5
import proofs.«106519_j66838281061050_1_alg».proof.Proof.RefStages

/-!
  The kernel's program, boundary by boundary, against the reference's stages, over the extended reals. Each of
  the six launches leaves in its output array the layer function (dense projection; bias row, rectified or not)
  of the arrays it found; the reference's corresponding stage is the same function of the same arrays. Each host
  stretch between them applies the reference's own operations. Walking the thirteen boundaries from the launch
  memory, the array each layer or stretch leaves is the reference's stage at the same arguments, and so the result
  array is the reference's last stage: tanh of the per-graph mean of the third layer's output.
-/

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP Cert.ReferenceIdeal.Layers Cert.Gcn

variable (m : (ℓ : Loc nD τ sig) → Buf (Elt Ideal) ℓ) (ρ : Dev nD → PrngReg) (c : Dev nD)

/-- The nine argument arrays at launch, at their literal types. -/
abbrev x0 : (⟨S100000x3, .f32⟩ : BufTy).Contents (Elt Ideal) := m ((c : Thread nD τ).loc main_arg0)
abbrev x1 : (⟨S2x1600000, .i32⟩ : BufTy).Contents (Elt Ideal) := m ((c : Thread nD τ).loc main_arg1)
abbrev x2 : (⟨S100000, .i32⟩ : BufTy).Contents (Elt Ideal) := m ((c : Thread nD τ).loc main_arg2)
abbrev x3 : (⟨S3x64, .f32⟩ : BufTy).Contents (Elt Ideal) := m ((c : Thread nD τ).loc main_arg3)
abbrev x4 : (⟨S64, .f32⟩ : BufTy).Contents (Elt Ideal) := m ((c : Thread nD τ).loc main_arg4)
abbrev x5 : (⟨S64x64, .f32⟩ : BufTy).Contents (Elt Ideal) := m ((c : Thread nD τ).loc main_arg5)
abbrev x6 : (⟨S64, .f32⟩ : BufTy).Contents (Elt Ideal) := m ((c : Thread nD τ).loc main_arg6)
abbrev x7 : (⟨S64x24, .f32⟩ : BufTy).Contents (Elt Ideal) := m ((c : Thread nD τ).loc main_arg7)
abbrev x8 : (⟨S24, .f32⟩ : BufTy).Contents (Elt Ideal) := m ((c : Thread nD τ).loc main_arg8)

/-- After the first launch: the first projection. -/
theorem s31 : W4 m ρ c (Proc.devRef .tc main_v31) = val_main_v31 (F := Ideal) (x0 m c) (x3 m c) := by
  refine (W4_arr m ρ c 2).trans ?_
  rw [Dense0.array_eq (V3 m ρ) c, v31_eq]
  have e0 : Dense0.xarr (V3 m ρ) c = x0 m c := W3_arg0 m ρ c
  have e3 : Dense0.warr (V3 m ρ) c = x3 m c := W3_arg3 m ρ c
  rw [e0, e3]

/-- After the first aggregation stretch. -/
theorem s44 : W5 m ρ c (Proc.devRef .tc main_v44) = val_main_v44 (F := Ideal) (x0 m c) (x1 m c) (x3 m c) :=
  Fold.W5_v44_of m ρ c (x0 m c) (x1 m c) (x3 m c) (s31 m ρ c)
    ((W4_v3 m ρ c).trans (Fold.W3_v3 m ρ c)) ((W4_v7 m ρ c).trans (Fold.W3_v7 m ρ c))
    ((W4_v30 m ρ c).trans (Fold.W3_v30 m ρ c))

/-- After the second launch: the first layer's features. -/
theorem s48 : W6 m ρ c (Proc.devRef .tc main_v45) = val_main_v48 (F := Ideal) (x0 m c) (x1 m c) (x3 m c) (x4 m c) := by
  refine (W6_arr m ρ c 2).trans ?_
  rw [Bias1.array_eq (V5 m ρ) c, v48_eq]
  have ex : Bias1.xarr (V5 m ρ) c = val_main_v44 (F := Ideal) (x0 m c) (x1 m c) (x3 m c) := s44 m ρ c
  have eb : Bias1.barr (V5 m ρ) c = x4 m c := W5_arg4 m ρ c
  rw [ex, eb]

/-- After the third launch: the second projection. -/
theorem s49 : W7 m ρ c (Proc.devRef .tc main_v46)
    = val_main_v49 (F := Ideal) (x0 m c) (x1 m c) (x3 m c) (x4 m c) (x5 m c) := by
  refine (W7_arr m ρ c 2).trans ?_
  rw [Dense2.array_eq (V6 m ρ) c, v49_eq]
  have ex : Dense2.xarr (V6 m ρ) c = val_main_v48 (F := Ideal) (x0 m c) (x1 m c) (x3 m c) (x4 m c) := s48 m ρ c
  have ew : Dense2.warr (V6 m ρ) c = x5 m c := W6_arg5 m ρ c
  rw [ex, ew]

/-- After the second aggregation stretch. -/
theorem s62 : W8 m ρ c (Proc.devRef .tc main_v59)
    = val_main_v62 (F := Ideal) (x0 m c) (x1 m c) (x3 m c) (x4 m c) (x5 m c) :=
  Fold.W8_v59_of m ρ c (x0 m c) (x1 m c) (x3 m c) (x4 m c) (x5 m c) (s49 m ρ c)
    ((W7_v3 m ρ c).trans (Fold.W3_v3 m ρ c)) ((W7_v7 m ρ c).trans (Fold.W3_v7 m ρ c))
    ((W7_v30 m ρ c).trans (Fold.W3_v30 m ρ c))

/-- After the fourth launch: the second layer's features. -/
theorem s66 : W9 m ρ c (Proc.devRef .tc main_v60)
    = val_main_v66 (F := Ideal) (x0 m c) (x1 m c) (x3 m c) (x4 m c) (x5 m c) (x6 m c) := by
  refine (W9_arr m ρ c 2).trans ?_
  rw [Bias3.array_eq (V8 m ρ) c, v66_eq]
  have ex : Bias3.xarr (V8 m ρ) c = val_main_v62 (F := Ideal) (x0 m c) (x1 m c) (x3 m c) (x4 m c) (x5 m c) := s62 m ρ c
  have eb : Bias3.barr (V8 m ρ) c = x6 m c := W8_arg6 m ρ c
  rw [ex, eb]

/-- After the fifth launch: the third projection. -/
theorem s67 : W10 m ρ c (Proc.devRef .tc main_v61)
    = val_main_v67 (F := Ideal) (x0 m c) (x1 m c) (x3 m c) (x4 m c) (x5 m c) (x6 m c) (x7 m c) := by
  refine (W10_arr m ρ c 2).trans ?_
  rw [Dense4.array_eq (V9 m ρ) c, v67_eq]
  have ex : Dense4.xarr (V9 m ρ) c = val_main_v66 (F := Ideal) (x0 m c) (x1 m c) (x3 m c) (x4 m c) (x5 m c) (x6 m c) := s66 m ρ c
  have ew : Dense4.warr (V9 m ρ) c = x7 m c := W9_arg7 m ρ c
  rw [ex, ew]

/-- After the third aggregation stretch. -/
theorem s80 : W11 m ρ c (Proc.devRef .tc main_v74)
    = val_main_v80 (F := Ideal) (x0 m c) (x1 m c) (x3 m c) (x4 m c) (x5 m c) (x6 m c) (x7 m c) :=
  Fold.W11_v74_of m ρ c (x0 m c) (x1 m c) (x3 m c) (x4 m c) (x5 m c) (x6 m c) (x7 m c) (s67 m ρ c)
    ((W10_v3 m ρ c).trans (Fold.W3_v3 m ρ c)) ((W10_v7 m ρ c).trans (Fold.W3_v7 m ρ c))
    ((W10_v30 m ρ c).trans (Fold.W3_v30 m ρ c))

/-- After the sixth launch: the third layer's output. -/
theorem s83 : W12 m ρ c (Proc.devRef .tc main_v75)
    = val_main_v83 (F := Ideal) (x0 m c) (x1 m c) (x3 m c) (x4 m c) (x5 m c) (x6 m c) (x7 m c) (x8 m c) := by
  refine (W12_arr m ρ c 2).trans ?_
  rw [Bias5.array_eq (V11 m ρ) c, v83_eq]
  have ex : Bias5.xarr (V11 m ρ) c
      = val_main_v80 (F := Ideal) (x0 m c) (x1 m c) (x3 m c) (x4 m c) (x5 m c) (x6 m c) (x7 m c) := s80 m ρ c
  have eb : Bias5.barr (V11 m ρ) c = x8 m c := W11_arg8 m ρ c
  rw [ex, eb]

/-- The result array: tanh of the per-graph mean, the reference's last stage at the launch arguments. -/
theorem s96 : W13 m ρ c (Proc.devRef .tc main_v88)
    = val_main_v96 (F := Ideal) (x0 m c) (x1 m c) (x2 m c) (x3 m c) (x4 m c) (x5 m c) (x6 m c) (x7 m c) (x8 m c) :=
  Fold.W13_v88_of m ρ c (x0 m c) (x1 m c) (x2 m c) (x3 m c) (x4 m c) (x5 m c) (x6 m c) (x7 m c) (x8 m c)
    (s83 m ρ c) (W12_arg2 m ρ c)

end Cert.KernelIdeal.Chain

end
-- ==== Proof.lean ====
/-
  A three-layer graph convolution with mean pooling: the kernel's program against its jnp reference, over the
  extended reals.

  Both programs build the edge list with one self loop per node, the degrees and the symmetric weights
  1/sqrt(deg(src))·1/sqrt(deg(dst)); then, three times, project the node features by a weight array, gather the
  projected rows along the source endpoints, scale by the edge weight, sum per destination node and add a bias (the
  first two layers rectify); then average the 24 outputs per graph and apply tanh. The kernel's program runs the
  three projections and the three bias steps as launches over ten blocks of 10000 node rows; the reference runs
  them as whole-array host operations. Over the extended reals a block of a launch is the same block of the
  whole-array function (a change of float format is the identity, a matrix product into a zero accumulator is the
  plain sum of products, a bias laid out as a row and repeated is the bias of the column), the blocks tile the
  arrays, and every host stretch is the same text in both programs. So the two result arrays are the same function
  of the arguments; no law used needs the inputs to be finite.

  The three frames: the two kernel programs' are the generated frame certificates; the reference's is its run with
  the result dropped. The idealization rewrote nothing, so it is preserved trivially.
-/
import proofs.«106519_j66838281061050_1_alg».proof.Defs
import proofs.«106519_j66838281061050_1_alg».proof.Proof.Gen.Kernel
import proofs.«106519_j66838281061050_1_alg».proof.Proof.Gen.Kernel.Skeleton
import proofs.«106519_j66838281061050_1_alg».proof.Proof.Gen.Kernel.Launch
import proofs.«106519_j66838281061050_1_alg».proof.Proof.Gen.Kernel.Points
import proofs.«106519_j66838281061050_1_alg».proof.Proof.Gen.Kernel.Frame
import proofs.«106519_j66838281061050_1_alg».proof.Proof.Gen.KernelIdeal
import proofs.«106519_j66838281061050_1_alg».proof.Proof.Gen.KernelIdeal.Skeleton
import proofs.«106519_j66838281061050_1_alg».proof.Proof.Gen.KernelIdeal.Launch
import proofs.«106519_j66838281061050_1_alg».proof.Proof.Gen.KernelIdeal.Points
import proofs.«106519_j66838281061050_1_alg».proof.Proof.Gen.KernelIdeal.Frame
import proofs.«106519_j66838281061050_1_alg».proof.Proof.Gen.ReferenceIdeal
import proofs.«106519_j66838281061050_1_alg».proof.Proof.Gen.Pre_finite_inputs
import proofs.«106519_j66838281061050_1_alg».proof.Proof.KernelRun
import proofs.«106519_j66838281061050_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end, with one result array: the reference's last stage,
    tanh of the per-graph mean of the third layer's output, at the launch arguments. -/
theorem algebraic : Cert.algebraic_KernelIdeal_ReferenceIdeal := by
  intro m ρ m' ρ' _ hagree
  refine ⟨fun c => Cert.KernelIdeal.Gen.W13 m ρ c (Proc.devRef .tc Cert.KernelIdeal.main_v88),
    Cert.KernelIdeal.Gen.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v96_eq, h0, h1, h2, h3, h4, h5, h6, h7, h8]
  exact (Cert.KernelIdeal.Chain.s96 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
